-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S640000 : Shape := ⟨1, ![640000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S128x1 .f32) (main_arg5 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : FVec F S100000x128 .f32) (main_arg2 : FVec F S256x128 .f32) (main_arg3 : FVec F S128 .f32) (main_arg4 : FVec F S128x1 .f32) (main_arg5 : FVec F S1 .f32) (main_arg6 : IVec S640000 32) (main_arg7 : IVec S640000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x128 : Shape := ⟨2, ![100000, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S5000x128 : Shape := ⟨2, ![5000, 128]⟩
abbrev S5000x256 : Shape := ⟨2, ![5000, 256]⟩
abbrev S1x128 : Shape := ⟨2, ![1, 128]⟩
abbrev S5000x1 : Shape := ⟨2, ![5000, 1]⟩
abbrev S1x1 : Shape := ⟨2, ![1, 1]⟩
abbrev S100000x1 : Shape := ⟨2, ![100000, 1]⟩

abbrev nBuf : Space → Nat
  | .hbm => 42
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S640000x128, .f32⟩
  | .hbm, ⟨27, _⟩ => ⟨S_, .f32⟩
  | .hbm, ⟨28, _⟩ => ⟨S100000x128, .f32⟩
  | .hbm, ⟨29, _⟩ => ⟨S640000x1, .i32⟩
  | .hbm, ⟨30, _⟩ => ⟨S100000x128, .f32⟩
  | .hbm, ⟨31, _⟩ => ⟨S_, .f32⟩
  | .hbm, ⟨32, _⟩ => ⟨S640000x1, .f32⟩
  | .hbm, ⟨33, _⟩ => ⟨S_, .f32⟩
  | .hbm, ⟨34, _⟩ => ⟨S100000x1, .f32⟩
  | .hbm, ⟨35, _⟩ => ⟨S640000x1, .i32⟩
  | .hbm, ⟨36, _⟩ => ⟨S100000x1, .f32⟩
  | .hbm, ⟨37, _⟩ => ⟨S_, .f32⟩
  | .hbm, ⟨38, _⟩ => ⟨S100000x1, .f32⟩
  | .hbm, ⟨39, _⟩ => ⟨S100000x1, .f32⟩
  | .hbm, ⟨40, _⟩ => ⟨S100000x128, .f32⟩
  | .hbm, ⟨41, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .f32⟩
  | .local _ .vmem, ⟨5, _⟩ => ⟨S128, .f32⟩
  | .local _ .vmem, ⟨6, _⟩ => ⟨S128x1, .f32⟩
  | .local _ .vmem, ⟨7, _⟩ => ⟨S1, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  broadcasts_S5000x1_S5000x128 : S5000x1.Broadcasts S5000x128
  bcast_S_S100000x128 : S_.BroadcastsInDim S100000x128 (![] : Fin 0 → Fin S100000x128.rank)
  bcast_S_S640000x1 : S_.BroadcastsInDim S640000x1 (![] : Fin 0 → Fin S640000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  dot_S5000x256_S256x128_S5000x128_1_0_0_1_n_n_wf : DotDims.WF S5000x256 S256x128 S5000x128 [1] [0] [0] [1] [] []
  dot_S5000x128_S128x1_S5000x1_1_0_0_1_n_n_wf : DotDims.WF S5000x128 S128x1 S5000x1 [1] [0] [0] [1] [] []
  scatter_S100000x128_S640000x1_S640000x128_1_0_0_1_wf : ScatterDims.WF S100000x128 S640000x1 S640000x128 [1] [0] [0] 1
  scatter_S100000x1_S640000x1_S640000x1_1_0_0_1_wf : ScatterDims.WF S100000x1 S640000x1 S640000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S640000x128.size a
  hwx0_0 : ∀ i : grid0.Coords, EltTy.bits .f32 = 32 ∨ (Rect.block (s := S640000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S640000x128.size a
  hwx0_1 : ∀ i : grid0.Coords, EltTy.bits .f32 = 32 ∨ (Rect.block (s := S640000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S640000x128.size a
  hwx0_6 : ∀ i : grid0.Coords, EltTy.bits .f32 = 32 ∨ (Rect.block (s := S640000x128) S5000x128.size (cc0_transform_6 i) (hinb0_6 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf

abbrev win0_0 : Pipeline.Window sig grid0 :=
  Pipeline.Window.ofSpec (Memref.whole main_v6) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x256 : Shape := ⟨2, ![640000, 256]⟩
abbrev S1x128 : Shape := ⟨2, ![1, 128]⟩
abbrev S1x1 : Shape := ⟨2, ![1, 1]⟩
abbrev S100000x1 : Shape := ⟨2, ![100000, 1]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S640000x256, .f32⟩
  | .hbm, ⟨27, _⟩ => ⟨S640000x128, .f32⟩
  | .hbm, ⟨28, _⟩ => ⟨S1x128, .f32⟩
  | .hbm, ⟨29, _⟩ => ⟨S640000x128, .f32⟩
  | .hbm, ⟨30, _⟩ => ⟨S640000x128, .f32⟩
  | .hbm, ⟨31, _⟩ => ⟨S_, .f32⟩
  | .hbm, ⟨32, _⟩ => ⟨S640000x128, .f32⟩
  | .hbm, ⟨33, _⟩ => ⟨S640000x128, .f32⟩
  | .hbm, ⟨34, _⟩ => ⟨S640000x1, .f32⟩
  | .hbm, ⟨35, _⟩ => ⟨S1x1, .f32⟩
  | .hbm, ⟨36, _⟩ => ⟨S640000x1, .f32⟩
  | .hbm, ⟨37, _⟩ => ⟨S640000x1, .f32⟩
  | .hbm, ⟨38, _⟩ => ⟨S640000x1, .f32⟩
  | .hbm, ⟨39, _⟩ => ⟨S640000x1, .f32⟩
  | .hbm, ⟨40, _⟩ => ⟨S_, .f32⟩
  | .hbm, ⟨41, _⟩ => ⟨S640000x1, .f32⟩
  | .hbm, ⟨42, _⟩ => ⟨S640000x1, .f32⟩
  | .hbm, ⟨43, _⟩ => ⟨S_, .f32⟩
  | .hbm, ⟨44, _⟩ => ⟨S640000x1, .f32⟩
  | .hbm, ⟨45, _⟩ => ⟨S640000x1, .f32⟩
  | .hbm, ⟨46, _⟩ => ⟨S640000x128, .f32⟩
  | .hbm, ⟨47, _⟩ => ⟨S640000x128, .f32⟩
  | .hbm, ⟨48, _⟩ => ⟨S_, .f32⟩
  | .hbm, ⟨49, _⟩ => ⟨S100000x128, .f32⟩
  | .hbm, ⟨50, _⟩ => ⟨S640000x1, .i32⟩
  | .hbm, ⟨51, _⟩ => ⟨S100000x128, .f32⟩
  | .hbm, ⟨52, _⟩ => ⟨S_, .f32⟩
  | .hbm, ⟨53, _⟩ => ⟨S640000x1, .f32⟩
  | .hbm, ⟨54, _⟩ => ⟨S_, .f32⟩
  | .hbm, ⟨55, _⟩ => ⟨S100000x1, .f32⟩
  | .hbm, ⟨56, _⟩ => ⟨S640000x1, .i32⟩
  | .hbm, ⟨57, _⟩ => ⟨S100000x1, .f32⟩
  | .hbm, ⟨58, _⟩ => ⟨S_, .f32⟩
  | .hbm, ⟨59, _⟩ => ⟨S100000x1, .f32⟩
  | .hbm, ⟨60, _⟩ => ⟨S100000x1, .f32⟩
  | .hbm, ⟨61, _⟩ => ⟨S100000x128, .f32⟩
  | .hbm, ⟨62, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  dot_S640000x256_S256x128_S640000x128_1_0_0_1_n_n_wf : DotDims.WF S640000x256 S256x128 S640000x128 [1] [0] [0] [1] [] []
  dot_S640000x128_S128x1_S640000x1_1_0_0_1_n_n_wf : DotDims.WF S640000x128 S128x1 S640000x1 [1] [0] [0] [1] [] []
  scatter_S100000x128_S640000x1_S640000x128_1_0_0_1_wf : ScatterDims.WF S100000x128 S640000x1 S640000x128 [1] [0] [0] 1
  scatter_S100000x1_S640000x1_S640000x1_1_0_0_1_wf : ScatterDims.WF S100000x1 S640000x1 S640000x1 [1] [0] [0] 1

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf

class Facts : Prop extends Facts₀ where

variable [Facts]
-- ==== Proof.LibKeepdims.lean ====
/-
  Layout operations of a `keepdims` reduction read at an index given by coordinates.

  A row reduction that keeps its axis prints as three layout steps around the reduction: the reduced vector
  `[a]` is cast to a column `[a, 1]`, and the column is broadcast back over the row axis to `[a, b]`; a
  value reduced to one number `[1, 1]` is broadcast down a column `[a, 1]`. Each lemma reads one of these at an
  index written with the coordinate constructors `ix1` / `ix2`, so that it applies to a printed operation by
  unification, at any extents. They are the column-shaped companions of the row-shaped lemmas
  `shapeCast_a_1a_apply` and `broadcastTo_1b_ab_apply`.
-/
import Idealize.ShloMosaic.Lib.Pipeline.Value
import Idealize.ShloMosaic.Lib.ValueIdx
import Idealize.ShloMosaic.Lib.ValueLayout

namespace Cert.Lib.Keepdims

open Idealize.ShloMosaic Idealize.ShloMosaic.ValueIdx

variable {α : Type}

/-- An `[a]` array cast to a column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast down a column `[a, 1]` reads, at every `(p, u)`, its one entry. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The same four readings as equations between whole arrays, the form `simp only` rewrites a payload with. -/
theorem shapeCast_a_a1_eq {a : ℕ} (x : (⟨1, ![a]⟩ : Shape).Idx → α) (h : (⟨1, ![a]⟩ : Shape).ShapeCasts ⟨2, ![a, 1]⟩) :
    shapeCast ⟨2, ![a, 1]⟩ x h = fun y => x (ix1 (y 0)) :=
  funext fun y => (congrArg (shapeCast ⟨2, ![a, 1]⟩ x h) (eq_ix2 y)).trans (shapeCast_a_a1_apply x h (y 0) (y 1))

theorem broadcastTo_a1_ab_eq {a b : ℕ} (v : (⟨2, ![a, 1]⟩ : Shape).Idx → α) (h : (⟨2, ![a, 1]⟩ : Shape).Broadcasts ⟨2, ![a, b]⟩) :
    broadcastTo ⟨2, ![a, b]⟩ v h = fun y => v (ix2 (y 0) (0 : Fin 1)) :=
  funext fun y => (congrArg (broadcastTo ⟨2, ![a, b]⟩ v h) (eq_ix2 y)).trans (broadcastTo_a1_ab_apply v h (y 0) (y 1))

theorem broadcastTo_1b_ab_eq {a b : ℕ} (v : (⟨2, ![1, b]⟩ : Shape).Idx → α) (h : (⟨2, ![1, b]⟩ : Shape).Broadcasts ⟨2, ![a, b]⟩) :
    broadcastTo ⟨2, ![a, b]⟩ v h = fun y => v (ix2 (0 : Fin 1) (y 1)) :=
  funext fun y => (congrArg (broadcastTo ⟨2, ![a, b]⟩ v h) (eq_ix2 y)).trans (broadcastTo_1b_ab_apply v h (y 0) (y 1))

theorem broadcastTo_11_a1_eq {a : ℕ} (v : (⟨2, ![1, 1]⟩ : Shape).Idx → α) (h : (⟨2, ![1, 1]⟩ : Shape).Broadcasts ⟨2, ![a, 1]⟩) :
    broadcastTo ⟨2, ![a, 1]⟩ v h = fun _ => v (ix2 (0 : Fin 1) (0 : Fin 1)) :=
  funext fun y => (congrArg (broadcastTo ⟨2, ![a, 1]⟩ v h) (eq_ix2 y)).trans (broadcastTo_11_a1_apply v h (y 0) (y 1))

theorem shapeCast_a_1a_eq {a : ℕ} (x : (⟨1, ![a]⟩ : Shape).Idx → α) (h : (⟨1, ![a]⟩ : Shape).ShapeCasts ⟨2, ![1, a]⟩) :
    shapeCast ⟨2, ![1, a]⟩ x h = fun y => x (ix1 (y 1)) :=
  funext fun y => (congrArg (shapeCast ⟨2, ![1, a]⟩ x h) (eq_ix2 y)).trans (shapeCast_a_1a_apply x h (y 0) (y 1))

end Cert.Lib.Keepdims
-- ==== Proof.LibPlainDot.lean ====
/-
  A matrix product read at an entry.

  A product of an \`M × K\` by a \`K × N\` matrix whose dimension numbers contract the left operand's columns with the
  right operand's rows, keep the left rows and the right columns in that order, and have no batch axis. At result
  entry \`(i, j)\` and contraction position \`k\` the left operand is read at \`(i, k)\` and the right at \`(k, j)\`, and the
  one-axis contraction index set is its coordinate range \`Fin K\`; so the sum over the contraction index is the
  textbook \`∑ q, A i q * B q j\`. The same for a stack of \`B\` such products, member by member (one batch axis, the
  first of both operands and of the result). Stated for ANY dimension-number record with those lists, at the
  extended reals, for the accumulating block product into a zero accumulator and for the host's product.
-/
import Idealize.ShloMosaic.PureOps.Ideal
import Idealize.ShloMosaic.PureOps.Ideal.Laws
import Idealize.ShloMosaic.Lib.ValueIdx

noncomputable section

open scoped BigOperators

namespace Cert.LibPlainDot

open Idealize.ShloMosaic Idealize.ShloMosaic.ValueIdx

/-! ## The plain product

The contraction shape lists the sizes of the left operand's contracted axes: here the one size \`K\`. Off the contracted
axis an operand index reads the result index: the left operand's row is the result's row, the right operand's column
the result's column. Each fact is read off the record once its lists are the stated literals. -/

section Plain

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent \`K\`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry \`(i, j)\` is the matrix product's entry: at contraction position
    \`k\` with coordinate \`q\` the left operand is read at \`(i, q)\` and the right at \`(q, j)\`, and the positions
    correspond one to one to the coordinates \`q : Fin K\`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  -- the operand indices at position \`k\`, by coordinates
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)
    _ = ∑ q : Fin K, l (ix2 i q) * r (ix2 q j) := rfl

/-- A block product into the zero accumulator, read at \`(i, j)\`, is the matrix product's entry. -/
theorem matmul_zero_apply (prec : Option ContractPrecision) (l : FVec Ideal (⟨2, ![M, K]⟩ : Shape) .f32)
    (r : FVec Ideal (⟨2, ![K, N]⟩ : Shape) .f32) (i : Fin M) (j : Fin N) :
    FloatOps.matmul d prec l r (constant (⟨2, ![M, N]⟩ : Shape) .f32 0x00000000#32) (ix2 i j)
      = ∑ q : Fin K, l (ix2 i q) * r (ix2 q j) := by
  rw [Ideal.matmul_constant_zero_apply]
  exact plain_sum d hlc hrc hln hrn hlb hrb l r i j

/-- The same, with the block product spelled by its vector-level name. -/
theorem matmul_zero_apply' (prec : Option ContractPrecision) (l : FVec Ideal (⟨2, ![M, K]⟩ : Shape) .f32)
    (r : FVec Ideal (⟨2, ![K, N]⟩ : Shape) .f32) (i : Fin M) (j : Fin N) :
    matmul d prec l r (constant (⟨2, ![M, N]⟩ : Shape) .f32 0x00000000#32) (ix2 i j)
      = ∑ q : Fin K, l (ix2 i q) * r (ix2 q j) :=
  matmul_zero_apply d hlc hrc hln hrn hlb hrb prec l r i j

/-- The host's product, read at \`(i, j)\`, is the matrix product's entry. -/
theorem hostDot_apply (prec : Option ContractPrecision) (l : FVec Ideal (⟨2, ![M, K]⟩ : Shape) .f32)
    (r : FVec Ideal (⟨2, ![K, N]⟩ : Shape) .f32) (i : Fin M) (j : Fin N) :
    Host.dotGeneral d prec l r (ix2 i j) = ∑ q : Fin K, l (ix2 i q) * r (ix2 q j) := by
  show FloatOps.dotGeneral d prec .single l r (ix2 i j) = _
  rw [Ideal.dotGeneral_apply]
  exact plain_sum d hlc hrc hln hrn hlb hrb l r i j

end Plain

/-! ## The stack of products

One batch axis, the first of both operands and of the result; the left operand's last axis is contracted with the
right operand's middle one. Both operands read the result's batch coordinate; the left operand's row is the result's
row, the right operand's column the result's column. -/

section Batched

variable {B M K N : Nat}
  (d : DotDims (⟨3, ![B, M, K]⟩ : Shape) (⟨3, ![B, K, N]⟩ : Shape) (⟨3, ![B, M, N]⟩ : Shape))
  (hlc : d.lhsContracting = [2]) (hrc : d.rhsContracting = [1]) (hln : d.lhsNonContracting = [1])
  (hrn : d.rhsNonContracting = [2]) (hlb : d.lhsBatch = [0]) (hrb : d.rhsBatch = [0])

include hlc hrc hln hrn hlb hrb

/-- The contraction index set has one axis … -/
theorem contr_rank3 : d.contr.rank = 1 := by
  obtain ⟨lc, rc, ln, rn, lb, rb, wf⟩ := d
  subst hlc hrc hln hrn hlb hrb
  rfl

/-- … of extent \`K\`, the size of the left operand's last axis. -/
theorem contr_size3 (h : 0 < d.contr.rank) : d.contr.size ⟨0, h⟩ = K := by
  obtain ⟨lc, rc, ln, rn, lb, rb, wf⟩ := d
  subst hlc hrc hln hrn hlb hrb
  rfl

/-- The left operand's member is the result's member … -/
theorem lhs_batch3 (b : Fin B) (i : Fin M) (j : Fin N) (k : d.contr.Idx) :
    (d.lhsIdx (ix3 b i j) k 0).val = b.val := by
  obtain ⟨lc, rc, ln, rn, lb, rb, wf⟩ := d
  subst hlc hrc hln hrn hlb hrb
  rfl

/-- … and its row the result's row. -/
theorem lhs_row3 (b : Fin B) (i : Fin M) (j : Fin N) (k : d.contr.Idx) :
    (d.lhsIdx (ix3 b i j) k 1).val = i.val := by
  obtain ⟨lc, rc, ln, rn, lb, rb, wf⟩ := d
  subst hlc hrc hln hrn hlb hrb
  rfl

/-- The right operand's member is the result's member … -/
theorem rhs_batch3 (b : Fin B) (i : Fin M) (j : Fin N) (k : d.contr.Idx) :
    (d.rhsIdx (ix3 b i j) k 0).val = b.val := by
  obtain ⟨lc, rc, ln, rn, lb, rb, wf⟩ := d
  subst hlc hrc hln hrn hlb hrb
  rfl

/-- … and its column the result's column. -/
theorem rhs_col3 (b : Fin B) (i : Fin M) (j : Fin N) (k : d.contr.Idx) :
    (d.rhsIdx (ix3 b i j) k 2).val = j.val := by
  obtain ⟨lc, rc, ln, rn, lb, rb, wf⟩ := d
  subst hlc hrc hln hrn hlb hrb
  rfl

/-- THE HOST'S PRODUCT OF TWO STACKS, member by member, read at \`(b, i, j)\`, is entry \`(i, j)\` of the product of the
    two members \`b\`: at contraction position \`k\` with coordinate \`q\` the left stack is read at \`(b, i, q)\` and the
    right at \`(b, q, j)\`, and the sum is re-indexed by \`q : Fin K\`. -/
theorem batchDot_apply (prec : Option ContractPrecision) (l : FVec Ideal (⟨3, ![B, M, K]⟩ : Shape) .f32)
    (r : FVec Ideal (⟨3, ![B, K, N]⟩ : Shape) .f32) (b : Fin B) (i : Fin M) (j : Fin N) :
    Host.dotGeneral d prec l r (ix3 b i j)
      = ∑ q : Fin K, l (ix3 b i q) * r (ix3 b q j) := by
  have h1 := contr_rank3 d hlc hrc hln hrn hlb hrb
  have hK := contr_size3 d hlc hrc hln hrn hlb hrb (by omega)
  have hl : ∀ k : d.contr.Idx, d.lhsIdx (ix3 b i j) k = ix3 b i (contrEquiv1 d K h1 hK k) := by
    intro k
    funext a
    refine Fin.ext ?_
    match a with
    | ⟨0, _⟩ => exact lhs_batch3 d hlc hrc hln hrn hlb hrb b i j k
    | ⟨1, _⟩ => exact lhs_row3 d hlc hrc hln hrn hlb hrb b i j k
    | ⟨2, _⟩ => exact d.lhsIdx_val_of_single hlc (ix3 b i j) k
  have hr : ∀ k : d.contr.Idx, d.rhsIdx (ix3 b i j) k = ix3 b (contrEquiv1 d K h1 hK k) j := by
    intro k
    funext a
    refine Fin.ext ?_
    match a with
    | ⟨0, _⟩ => exact rhs_batch3 d hlc hrc hln hrn hlb hrb b i j k
    | ⟨1, _⟩ => exact d.rhsIdx_val_of_single hrc (ix3 b i j) k
    | ⟨2, _⟩ => exact rhs_col3 d hlc hrc hln hrn hlb hrb b i j k
  show FloatOps.dotGeneral d prec .single l r (ix3 b i j) = _
  rw [Ideal.dotGeneral_apply]
  calc (∑ k : d.contr.Idx, l (d.lhsIdx (ix3 b i j) k) * r (d.rhsIdx (ix3 b i j) k))
      = ∑ k : d.contr.Idx, (fun q : Fin K => l (ix3 b i q) * r (ix3 b q j)) (contrEquiv1 d K h1 hK k) :=
        Finset.sum_congr rfl fun k _ => by rw [hl k, hr k]
    _ = ∑ q : Fin K, l (ix3 b i q) * r (ix3 b q j) :=
        Equiv.sum_comp (contrEquiv1 d K h1 hK) fun q : Fin K => l (ix3 b i q) * r (ix3 b q j)
    _ = ∑ q : Fin K, l (ix3 b i q) * r (ix3 b q j) := rfl

end Batched

end Cert.LibPlainDot

end
-- ==== Proof.LibJoinCols.lean ====
/-
  Two matrices laid side by side, read at an entry.

  Joining an `[n, a]` and an `[n, b]` matrix along the column axis gives an `[n, c]` matrix with `c = a + b`
  whose row `p` is the first matrix's row `p` followed by the second's. `joinCols` is that row as a function of the
  column: below `a` it reads the first row, from `a` on the second row `a` columns earlier. The lemma reads the
  printed concatenation at `(p, j)` as `joinCols` of the two rows `p`, at any row count.
-/
import Idealize.ShloMosaic.Lib.Pipeline.Value
import Idealize.ShloMosaic.Lib.ValueIdx

namespace Cert.LibJoinCols

open Idealize.ShloMosaic Idealize.ShloMosaic.ValueIdx

variable {α : Type}

/-- A row of `a` entries followed by a row of `b` entries, as one row of `c = a + b` entries. -/
def joinCols {a b c : ℕ} (hc : c = a + b) (u : Fin a → α) (v : Fin b → α) : Fin c → α :=
  fun j => if h : j.val < a then u ⟨j.val, h⟩ else v ⟨j.val - a, by have := j.isLt; omega⟩

/-- Two rows that agree entry by entry join to the same row. -/
theorem joinCols_congr {a b c : ℕ} (hc : c = a + b) {u u' : Fin a → α} {v v' : Fin b → α}
    (hu : ∀ j, u j = u' j) (hv : ∀ j, v j = v' j) : joinCols hc u v = joinCols hc u' v' := by
  rw [show u = u' from funext hu, show v = v' from funext hv]

/-- The concatenation of an `[n, a]` and an `[n, b]` matrix along the columns, read at `(p, j)`, is entry `j` of the
    two rows `p` joined. -/
theorem concatenate_cols_apply {n a b c : ℕ} (hc : c = a + b)
    (x : (⟨2, ![n, a]⟩ : Shape).Idx → α) (y : (⟨2, ![n, b]⟩ : Shape).Idx → α)
    (h : Shape.Concatenates [(⟨2, ![n, a]⟩ : Shape), (⟨2, ![n, b]⟩ : Shape)] (⟨2, ![n, c]⟩ : Shape) (1 : Fin 2))
    (p : Fin n) (j : Fin c) :
    concatenate (⟨2, ![n, c]⟩ : Shape) (1 : Fin 2) [⟨(⟨2, ![n, a]⟩ : Shape), x⟩, ⟨(⟨2, ![n, b]⟩ : Shape), y⟩] h (ix2 p j)
      = joinCols hc (fun q => x (ix2 p q)) (fun q => y (ix2 p q)) j := by
  unfold joinCols
  by_cases hj : j.val < a
  · rw [dif_pos hj]
    refine concatenate_pair_apply_left (1 : Fin 2) x y h (ix2 p j) rfl (ix2 p ⟨j.val, hj⟩) fun d => ?_
    match d with
    | ⟨0, _⟩ => rfl
    | ⟨1, _⟩ => rfl
  · rw [dif_neg hj]
    have hlt : j.val - a < b := by have := j.isLt; omega
    refine concatenate_pair_apply_right (1 : Fin 2) x y h (ix2 p j) rfl rfl (ix2 p ⟨j.val - a, hlt⟩) (fun d hd => ?_) ?_
    · match d with
      | ⟨0, _⟩ => rfl
      | ⟨1, _⟩ => exact absurd rfl hd
    · show j.val - a + a = j.val
      omega

end Cert.LibJoinCols
-- ==== Proof.EdgeMath.lean ====
/-
  The gate of one edge, as a number.

  An edge's row of 256 features (the source node's 128 followed by the destination node's 128) goes through a
  linear layer to 128 hidden values, each clipped below at zero, then through a linear layer to one number, then
  through the logistic function `x ↦ 1 / (1 + e⁻ˣ)`. `gate` is that number on the extended reals, with plain
  sums for the two layers. The logistic function written out with the constant one given by its binary pattern
  is the same function.
-/
import Idealize.ShloMosaic.PureOps.Ideal
import Idealize.ShloMosaic.PureOps.Ideal.Laws
import Idealize.ShloMosaic.Lib.IdealHost

noncomputable section

open scoped BigOperators

namespace Cert.EdgeMath

open Idealize.ShloMosaic

/-- A row of 256 is two rows of 128. -/
theorem h256 : 256 = 128 + 128 := by decide

/-- The gate of an edge whose feature row is `row`: `σ(∑ₖ max(∑ⱼ rowⱼ · w1ⱼₖ + b1ₖ, 0) · w2ₖ + b2)`. -/
def gate (row : Fin 256 → EReal) (w1 : Fin 256 → Fin 128 → EReal) (b1 : Fin 128 → EReal) (w2 : Fin 128 → EReal)
    (b2 : EReal) : EReal :=
  Ideal.logistic ((∑ k : Fin 128, max ((∑ j : Fin 256, row j * w1 j k) + b1 k) 0 * w2 k) + b2)

/-- `1 / (1 + e⁻ˣ)`, the ones spelled by the binary pattern of `1.0`, is the logistic function. -/
theorem logistic_expanded (x : EReal) :
    Ideal.div (Ideal.ofBits .f32 0x3F800000#32) (Ideal.ofBits .f32 0x3F800000#32 + Ideal.exp (-x)) = Ideal.logistic x := by
  rw [Ideal.ofBits_one_f32]
  rfl

end Cert.EdgeMath

end
-- ==== Proof.KernelPayload.lean ====
/-
  What the edge kernel stores, entry by entry.

  The body's one store writes, at row `p` (an edge of the block) and column `q`, the edge's gate times the source
  feature `x0[p, q]`. The gate is read off the body's operations one at a time: the two 128-wide feature rows joined
  into one row of 256, the first block product as a plain sum over those 256 columns, the bias row broadcast down the
  rows, the clip at zero, the second block product as a plain sum over the 128 hidden values, the one-entry bias,
  the logistic function, and the column of gates broadcast across the 128 columns. The narrowings to the 16-bit
  format are the identity on the extended reals.
-/
import proofs.«103770_j63376537420169_1_alg».proof.Proof.Gen.KernelIdeal.Skeleton
import proofs.«103770_j63376537420169_1_alg».proof.Proof.LibKeepdims
import proofs.«103770_j63376537420169_1_alg».proof.Proof.LibPlainDot
import proofs.«103770_j63376537420169_1_alg».proof.Proof.LibJoinCols
import proofs.«103770_j63376537420169_1_alg».proof.Proof.EdgeMath
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx
open Cert.EdgeMath Cert.LibJoinCols

/-- The stored value at `(p, q)`: the gate of row `p` times the source feature at `(p, q)`. -/
theorem pay_apply (x0 x1 : Vec Ideal S5000x128 .f32) (x2 : Vec Ideal S256x128 .f32) (x3 : Vec Ideal S128 .f32)
    (x4 : Vec Ideal S128x1 .f32) (x5 : Vec Ideal S1 .f32) (p : Fin 5000) (q : Fin 128) :
    k0_pay1 (F := Ideal) x0 x1 x2 x3 x4 x5 (ix2 p q)
      = gate (joinCols h256 (fun j => x0 (ix2 p j)) (fun j => x1 (ix2 p j)))
          (fun j k => x2 (ix2 j k)) (fun k => x3 (ix1 k)) (fun k => x4 (ix2 k (0 : Fin 1))) (x5 (ix1 (0 : Fin 1)))
        * x0 (ix2 p q) := by
  unfold k0_pay1
  rw [mulf_apply, shapeCast_self]
  rw [Cert.Lib.Keepdims.broadcastTo_a1_ab_apply, shapeCast_self x1]
  refine congrArg (· * x0 (ix2 p q)) ?_
  show Ideal.logistic (addf (F := Ideal) (s := S5000x1) (φ := .f32) _ _ (ix2 p (0 : Fin 1))) = _
  unfold gate
  refine congrArg Ideal.logistic ?_
  rw [addf_apply, Cert.Lib.Keepdims.broadcastTo_11_a1_apply, shapeCast_a_1a_apply]
  refine congrArg (· + x5 (ix1 (0 : Fin 1))) ?_
  simp only [matmul]
  rw [Ideal.matmul_constant_zero_apply]
  refine (Cert.LibPlainDot.plain_sum dot_S5000x128_S128x1_S5000x1_1_0_0_1_n_n rfl rfl rfl rfl rfl rfl _ _ p (0 : Fin 1)).trans ?_
  refine Finset.sum_congr rfl fun k _ => ?_
  rw [truncf_apply, truncf_apply]
  refine congrArg (· * x4 (ix2 k (0 : Fin 1))) ?_
  rw [maximumf_apply, broadcast_apply]
  show max (addf (F := Ideal) (s := S5000x128) (φ := .f32) _ _ (ix2 p k)) (Ideal.ofBits .f32 0x00000000#32) = _
  rw [Ideal.ofBits_zero_f32, addf_apply, broadcastTo_1b_ab_apply, shapeCast_a_1a_apply]
  refine congrArg (fun z => max (z + x3 (ix1 k)) 0) ?_
  rw [Ideal.matmul_constant_zero_apply]
  refine (Cert.LibPlainDot.plain_sum dot_S5000x256_S256x128_S5000x128_1_0_0_1_n_n rfl rfl rfl rfl rfl rfl _ _ p k).trans ?_
  refine Finset.sum_congr rfl fun j _ => ?_
  rw [truncf_apply, truncf_apply]
  refine congrArg (· * x2 (ix2 j k)) ?_
  exact concatenate_cols_apply h256 x0 x1 _ p j

end Cert.KernelIdeal.Hand

end
-- ==== Proof.MessageSpec.lean ====
/-
  The message array as one function of the gathered features and the weights.

  For 640000 edges with 128 features each: the message of edge `e` at column `q` is the gate of the edge's row
  (its source features followed by its destination features) times its source feature at column `q`.
-/
import proofs.«103770_j63376537420169_1_alg».proof.Proof.LibJoinCols
import proofs.«103770_j63376537420169_1_alg».proof.Proof.EdgeMath
import Idealize.ShloMosaic.Lib.ValueIdx

noncomputable section

namespace Cert.EdgeMath

open Idealize.ShloMosaic Idealize.ShloMosaic.ValueIdx Cert.LibJoinCols

/-- The messages of all edges: `message hs hd w1 b1 w2 b2 (e, q) = gate(hs[e, :] ++ hd[e, :]) · hs[e, q]`. -/
def message (hs hd : (⟨2, ![640000, 128]⟩ : Shape).Idx → EReal) (w1 : (⟨2, ![256, 128]⟩ : Shape).Idx → EReal)
    (b1 : (⟨1, ![128]⟩ : Shape).Idx → EReal) (w2 : (⟨2, ![128, 1]⟩ : Shape).Idx → EReal)
    (b2 : (⟨1, ![1]⟩ : Shape).Idx → EReal) : (⟨2, ![640000, 128]⟩ : Shape).Idx → EReal :=
  fun i => gate (joinCols h256 (fun j => hs (ix2 (i 0) j)) (fun j => hd (ix2 (i 0) j)))
      (fun j k => w1 (ix2 j k)) (fun k => b1 (ix1 k)) (fun k => w2 (ix2 k (0 : Fin 1))) (b2 (ix1 (0 : Fin 1)))
    * hs (ix2 (i 0) (i 1))

theorem message_apply (hs hd : (⟨2, ![640000, 128]⟩ : Shape).Idx → EReal) (w1 : (⟨2, ![256, 128]⟩ : Shape).Idx → EReal)
    (b1 : (⟨1, ![128]⟩ : Shape).Idx → EReal) (w2 : (⟨2, ![128, 1]⟩ : Shape).Idx → EReal)
    (b2 : (⟨1, ![1]⟩ : Shape).Idx → EReal) (e : Fin 640000) (q : Fin 128) :
    message hs hd w1 b1 w2 b2 (ix2 e q)
      = gate (joinCols h256 (fun j => hs (ix2 e j)) (fun j => hd (ix2 e j)))
          (fun j k => w1 (ix2 j k)) (fun k => b1 (ix1 k)) (fun k => w2 (ix2 k (0 : Fin 1))) (b2 (ix1 (0 : Fin 1)))
        * hs (ix2 e q) := rfl

end Cert.EdgeMath

end
-- ==== Proof.KernelArray.lean ====
/-
  The kernel's output array after the run.

  The grid has 128 points; point `t` works on edges `5000 t … 5000 t + 4999`: its two feature blocks are those rows of
  the two gathered arrays, its weight blocks are the whole weight arrays, and what it writes back is those rows of the
  message array. The 128 blocks tile the 640000 rows, so after the run the output array is the message array.
-/
import proofs.«103770_j63376537420169_1_alg».proof.Proof.Gen.KernelIdeal.Frame
import proofs.«103770_j63376537420169_1_alg».proof.Proof.KernelPayload
import proofs.«103770_j63376537420169_1_alg».proof.Proof.MessageSpec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.EdgeMath Cert.LibJoinCols

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a; rfl

/-- The arrays the region finds, at their literal types. -/
abbrev hsArr (c : Dev nD) : FVec Ideal S640000x128 .f32 := V m c main_v6
abbrev hdArr (c : Dev nD) : FVec Ideal S640000x128 .f32 := V m c main_v13
abbrev w1Arr (c : Dev nD) : FVec Ideal S256x128 .f32 := V m c main_arg2
abbrev b1Arr (c : Dev nD) : FVec Ideal S128 .f32 := V m c main_arg3
abbrev w2Arr (c : Dev nD) : FVec Ideal S128x1 .f32 := V m c main_arg4
abbrev b2Arr (c : Dev nD) : FVec Ideal S1 .f32 := V m c main_arg5

/-- The message array of the gathered features and weights as the region finds them. -/
def msgArr (c : Dev nD) : FVec Ideal S640000x128 .f32 :=
  message (hsArr m c) (hdArr m c) (w1Arr m c) (b1Arr m c) (w2Arr m c) (b2Arr m c)

/-- The block index maps, decided over the grid: the three row-blocked windows are at block `t`, the weights at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

theorem t_lt (t : Fin cfg0.N) : t.val < 128 :=
  Nat.lt_of_lt_of_eq t.isLt (show cfg0.N = 128 from N_0)

/-- Row `p` of point `t`'s block is row `5000 t + p` of the array. -/
def row (t : Fin cfg0.N) (p : Fin 5000) : Fin 640000 :=
  ⟨5000 * t.val + p.val, by have := t_lt t; have := p.isLt; omega⟩

theorem blk0_apply (c : Dev nD) (t : Fin cfg0.N) (p : Fin 5000) (q : Fin 128) :
    (iblk m c 0 t : Vec Ideal S5000x128 .f32) (ix2 p q) = hsArr m c (ix2 (row t p) q) := by
  obtain ⟨h00, h01, -⟩ := idx_facts t
  unfold iblk
  rw [View.read_apply]
  show V m c main_v6 _ = V m c main_v6 _
  congr 1
  funext a
  apply Fin.ext
  match a with
  | ⟨0, _⟩ => show win0_0.index t (0 : Fin 2) * 5000 + 1 * p.val = 5000 * t.val + p.val; rw [h00]; omega
  | ⟨1, _⟩ => show win0_0.index t (1 : Fin 2) * 128 + 1 * q.val = q.val; rw [h01]; omega

theorem blk1_apply (c : Dev nD) (t : Fin cfg0.N) (p : Fin 5000) (q : Fin 128) :
    (iblk m c 1 t : Vec Ideal S5000x128 .f32) (ix2 p q) = hdArr m c (ix2 (row t p) q) := by
  obtain ⟨-, -, h10, h11, -⟩ := idx_facts t
  unfold iblk
  rw [View.read_apply]
  show V m c main_v13 _ = V m c main_v13 _
  congr 1
  funext a
  apply Fin.ext
  match a with
  | ⟨0, _⟩ => show win0_1.index t (0 : Fin 2) * 5000 + 1 * p.val = 5000 * t.val + p.val; rw [h10]; omega
  | ⟨1, _⟩ => show win0_1.index t (1 : Fin 2) * 128 + 1 * q.val = q.val; rw [h11]; omega

theorem blk2_apply (c : Dev nD) (t : Fin cfg0.N) (j : Fin 256) (k : Fin 128) :
    (iblk m c 2 t : Vec Ideal S256x128 .f32) (ix2 j k) = w1Arr m c (ix2 j k) := by
  obtain ⟨-, -, -, -, -, -, h20, h21, -⟩ := idx_facts t
  unfold iblk
  rw [View.read_apply]
  show V m c main_arg2 _ = V m c main_arg2 _
  congr 1
  funext a
  apply Fin.ext
  match a with
  | ⟨0, _⟩ => show win0_2.index t (0 : Fin 2) * 256 + 1 * j.val = j.val; rw [h20]; omega
  | ⟨1, _⟩ => show win0_2.index t (1 : Fin 2) * 128 + 1 * k.val = k.val; rw [h21]; omega

theorem blk3_apply (c : Dev nD) (t : Fin cfg0.N) (k : Fin 128) :
    (iblk m c 3 t : Vec Ideal S128 .f32) (ix1 k) = b1Arr m c (ix1 k) := by
  obtain ⟨-, -, -, -, -, -, -, -, h30, -⟩ := idx_facts t
  unfold iblk
  rw [View.read_apply]
  show V m c main_arg3 _ = V m c main_arg3 _
  congr 1
  funext a
  apply Fin.ext
  match a with
  | ⟨0, _⟩ => show win0_3.index t (0 : Fin 1) * 128 + 1 * k.val = k.val; rw [h30]; omega

theorem blk4_apply (c : Dev nD) (t : Fin cfg0.N) (k : Fin 128) (u : Fin 1) :
    (iblk m c 4 t : Vec Ideal S128x1 .f32) (ix2 k u) = w2Arr m c (ix2 k u) := by
  obtain ⟨-, -, -, -, -, -, -, -, -, h40, h41, -⟩ := idx_facts t
  unfold iblk
  rw [View.read_apply]
  show V m c main_arg4 _ = V m c main_arg4 _
  congr 1
  funext a
  apply Fin.ext
  match a with
  | ⟨0, _⟩ => show win0_4.index t (0 : Fin 2) * 128 + 1 * k.val = k.val; rw [h40]; omega
  | ⟨1, _⟩ => show win0_4.index t (1 : Fin 2) * 1 + 1 * u.val = u.val; rw [h41]; omega

theorem blk5_apply (c : Dev nD) (t : Fin cfg0.N) (u : Fin 1) :
    (iblk m c 5 t : Vec Ideal S1 .f32) (ix1 u) = b2Arr m c (ix1 u) := by
  obtain ⟨-, -, -, -, -, -, -, -, -, -, -, h50⟩ := idx_facts t
  unfold iblk
  rw [View.read_apply]
  show V m c main_arg5 _ = V m c main_arg5 _
  congr 1
  funext a
  apply Fin.ext
  match a with
  | ⟨0, _⟩ => show win0_5.index t (0 : Fin 1) * 1 + 1 * u.val = u.val; rw [h50]; omega

/-- Entry `(p, q)` of the output's block at point `t` is entry `(5000 t + p, q)` of the array. -/
theorem emb6 (t : Fin cfg0.N) (p : Fin 5000) (q : Fin 128) :
    ((cfg0.win 6).blk t).view.emb (ix2 p q) = (ix2 (row t p) q : S640000x128.Idx) := by
  obtain ⟨-, -, -, -, h60, h61, -⟩ := idx_facts t
  funext a
  apply Fin.ext
  match a with
  | ⟨0, _⟩ => show win0_6.index t (0 : Fin 2) * 5000 + 1 * p.val = 5000 * t.val + p.val; rw [h60]; omega
  | ⟨1, _⟩ => show win0_6.index t (1 : Fin 2) * 128 + 1 * q.val = q.val; rw [h61]; omega

/-- WHAT POINT `t` WRITES BACK is block `t` of the message array. -/
theorem flushed_eq (c : Dev nD) (t : Fin cfg0.N) :
    (dats m 0 c).flushed 6 t = ((cfg0.win 6).blk t).view.read (Elt Ideal) (msgArr m c) := by
  show (cfg0.win 6).cut (grid0.coords t) ((dats m 0 c).after 6 t) = _
  rw [after0_6]
  unfold out0_6
  rw [View.canon_unit_zero hz2]
  simp only [View.ld_unit_zero (S := S5000x128) hz2, View.ld_unit_zero (S := S256x128) hz2,
    View.ld_unit_zero (S := S128) hz1, View.ld_unit_zero (S := S128x1) hz2, View.ld_unit_zero (S := S1) hz1]
  funext y
  obtain ⟨p, q, rfl⟩ : ∃ (p : Fin 5000) (q : Fin 128), y = ix2 p q := ⟨y 0, y 1, eq_ix2 y⟩
  show k0_pay1 (F := Ideal) (iblk m c 0 t) (iblk m c 1 t) (iblk m c 2 t) (iblk m c 3 t) (iblk m c 4 t) (iblk m c 5 t) (ix2 p q)
    = msgArr m c (((cfg0.win 6).blk t).view.emb (ix2 p q))
  rw [emb6 t p q]
  refine (pay_apply (iblk m c 0 t) (iblk m c 1 t) (iblk m c 2 t) (iblk m c 3 t) (iblk m c 4 t) (iblk m c 5 t) p q).trans ?_
  unfold msgArr
  rw [message_apply]
  simp only [blk0_apply, blk1_apply, blk2_apply, blk3_apply, blk4_apply, blk5_apply]

theorem mem_blk6 (t : Fin cfg0.N) (i : S640000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v14).slice (win0_6.rect t)).set ↔ _
  rw [View.set_slice_whole, Rect.mem_set_unit]
  exact Iff.rfl

/-- Every row lies in the block of the point `row / 5000`. -/
theorem cover6 (i : S640000x128.Idx) : ∃ t : Fin cfg0.N, (cfg0.win 6).flush t = true ∧ i ∈ ((cfg0.win 6).blk t).view.set := by
  have hi0 : (i 0).val < 640000 := (i 0).isLt
  have hi1 : (i 1).val < 128 := (i 1).isLt
  let t : Fin cfg0.N := ⟨(i 0).val / 5000, by rw [show cfg0.N = 128 from N_0]; omega⟩
  obtain ⟨-, -, -, -, h60, h61, -⟩ := idx_facts t
  have ht : t.val = (i 0).val / 5000 := rfl
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; rw [h60, ht]; omega
  | ⟨1, _⟩ => show win0_6.index t (1 : Fin 2) * 128 ≤ (i 1).val ∧ (i 1).val < win0_6.index t (1 : Fin 2) * 128 + 128; rw [h61]; omega

/-- THE ARRAY after the run is the message array. -/
theorem final6 (c : Dev nD) : (dats m 0 c).arrAt 6 cfg0.N = msgArr m c :=
  (dats m 0 c).arrAt_eq_of_cover 6 (msgArr m c) (fun t _ => flushed_eq m c t) cover6

end Cert.KernelIdeal.Hand

end
-- ==== Proof.RefMessage.lean ====
/-
  The reference's message array, entry by entry.

  The reference computes, for every edge `e` and column `q`, the edge's gate times the gathered source feature at
  `(e, q)`. The gate is read off the reference's operations stage by stage: the gathered source and destination rows
  joined into one row of 256, the first product as a plain sum over those columns, the bias, the clip at zero, the
  second product as a plain sum over the 128 hidden values, the second bias, and `1 / (1 + e⁻ˣ)` spelled with
  negate, exponential, add and divide, which is the logistic function.
-/
import proofs.«103770_j63376537420169_1_alg».proof.Proof.Gen.ReferenceIdeal.Read
import proofs.«103770_j63376537420169_1_alg».proof.Proof.LibJoinCols
import proofs.«103770_j63376537420169_1_alg».proof.Proof.EdgeMath
import proofs.«103770_j63376537420169_1_alg».proof.Proof.MessageSpec
import Idealize.ShloMosaic.Lib.Pipeline.Value
import Idealize.ShloMosaic.Lib.ValueIdx
import Idealize.ShloMosaic.PureOps.Ideal.Laws

noncomputable section

open scoped BigOperators

namespace Cert.ReferenceIdeal.Hand

open Cert.ReferenceIdeal Cert.ReferenceIdeal.Gen Cert.ReferenceIdeal.Read Idealize.ShloMosaic Idealize.ShloMosaic.ValueIdx
open Cert.EdgeMath Cert.LibJoinCols

variable (x0 x1 : (⟨S100000x128, .f32⟩ : BufTy).Contents (Elt Ideal)) (x2 : (⟨S256x128, .f32⟩ : BufTy).Contents (Elt Ideal))
  (x3 : (⟨S128, .f32⟩ : BufTy).Contents (Elt Ideal)) (x4 : (⟨S128x1, .f32⟩ : BufTy).Contents (Elt Ideal))
  (x5 : (⟨S1, .f32⟩ : BufTy).Contents (Elt Ideal)) (x6 x7 : (⟨S640000, .i32⟩ : BufTy).Contents (Elt Ideal))

/-- Edge `e`'s feature row: its gathered source row followed by its gathered destination row. -/
def pairRow (e : Fin 640000) : Fin 256 → EReal :=
  joinCols h256 (fun q => val_main_v6 (F := Ideal) x0 x6 (ix2 e q)) (fun q => val_main_v13 (F := Ideal) x1 x7 (ix2 e q))

/-- The joined array at `(e, j)` is entry `j` of edge `e`'s feature row. -/
theorem pair_apply (e : Fin 640000) (j : Fin 256) :
    val_main_v14 (F := Ideal) x0 x1 x6 x7 (ix2 e j) = pairRow x0 x1 x6 x7 e j := by
  unfold val_main_v14 pairRow
  exact concatenate_cols_apply h256 _ _ _ e j

/-- The first product at `(e, k)`: the plain sum over the 256 columns of the feature row. -/
theorem lin1_apply (e : Fin 640000) (k : Fin 128) :
    val_main_v15 (F := Ideal) x0 x1 x2 x6 x7 (ix2 e k) = ∑ j : Fin 256, pairRow x0 x1 x6 x7 e j * x2 (ix2 j k) := by
  rw [val_main_v15_apply]
  refine Finset.sum_congr rfl fun j _ => ?_
  have e1 : lidx_main_v15 (ix2 e k) j = ix2 e j := funext fun a => by
    match a with
    | ⟨0, _⟩ => rfl
    | ⟨1, _⟩ => rfl
  have e2 : ridx_main_v15 (ix2 e k) j = ix2 j k := funext fun a => by
    match a with
    | ⟨0, _⟩ => rfl
    | ⟨1, _⟩ => rfl
  rw [e1, e2, pair_apply]

/-- The hidden value at `(e, k)`: the first product plus the bias, clipped below at zero. -/
theorem hidden_apply (e : Fin 640000) (k : Fin 128) :
    val_main_v19 (F := Ideal) x0 x1 x2 x3 x6 x7 (ix2 e k)
      = max ((∑ j : Fin 256, pairRow x0 x1 x6 x7 e j * x2 (ix2 j k)) + x3 (ix1 k)) 0 := by
  rw [val_main_v19_apply, val_main_v18_apply, lin1_apply, val_main_v17_apply, val_main_v16_apply,
    val_main_call0_v0_apply, val_main_call0_cst_apply]
  have e3 : idx_main_v16 (idx_main_v17 (ix2 e k)) = ix1 k := funext fun a => by
    match a with
    | ⟨0, _⟩ => rfl
  rw [e3]
  show max (_ + _) (Ideal.ofBits .f32 0x00000000#32) = _
  rw [Ideal.ofBits_zero_f32]

/-- The second product at `(e, 0)`: the plain sum over the 128 hidden values. -/
theorem lin2_apply (e : Fin 640000) :
    val_main_v20 (F := Ideal) x0 x1 x2 x3 x4 x6 x7 (ix2 e (0 : Fin 1))
      = ∑ k : Fin 128, max ((∑ j : Fin 256, pairRow x0 x1 x6 x7 e j * x2 (ix2 j k)) + x3 (ix1 k)) 0 * x4 (ix2 k (0 : Fin 1)) := by
  rw [val_main_v20_apply]
  refine Finset.sum_congr rfl fun k _ => ?_
  have e4 : lidx_main_v20 (ix2 e (0 : Fin 1)) k = ix2 e k := funext fun a => by
    match a with
    | ⟨0, _⟩ => rfl
    | ⟨1, _⟩ => rfl
  have e5 : ridx_main_v20 (ix2 e (0 : Fin 1)) k = ix2 k (0 : Fin 1) := funext fun a => by
    match a with
    | ⟨0, _⟩ => rfl
    | ⟨1, _⟩ => rfl
  rw [e4, e5, hidden_apply]

/-- The quotient `1 / (1 + e⁻ˣ)` at `(e, 0)` is edge `e`'s gate. -/
theorem gate_apply (e : Fin 640000) :
    val_main_v29 (F := Ideal) x0 x1 x2 x3 x4 x5 x6 x7 (ix2 e (0 : Fin 1))
      = gate (pairRow x0 x1 x6 x7 e) (fun j k => x2 (ix2 j k)) (fun k => x3 (ix1 k)) (fun k => x4 (ix2 k (0 : Fin 1)))
          (x5 (ix1 (0 : Fin 1))) := by
  rw [val_main_v29_apply, val_main_v28_apply, val_main_cst_3_apply, val_main_v27_apply, val_main_v26_apply,
    val_main_cst_apply, val_main_v25_apply, val_main_v24_apply, val_main_v23_apply, lin2_apply, val_main_v22_apply,
    val_main_v21_apply]
  have e6 : idx_main_v21 (idx_main_v22 (ix2 e (0 : Fin 1))) = ix1 (0 : Fin 1) := funext fun a => by
    match a with
    | ⟨0, _⟩ => rfl
  rw [e6]
  exact logistic_expanded _

/-- THE MESSAGE at `(e, q)`: edge `e`'s gate times its gathered source feature at column `q`. -/
theorem msg_apply (e : Fin 640000) (q : Fin 128) :
    val_main_v31 (F := Ideal) x0 x1 x2 x3 x4 x5 x6 x7 (ix2 e q)
      = gate (pairRow x0 x1 x6 x7 e) (fun j k => x2 (ix2 j k)) (fun k => x3 (ix1 k)) (fun k => x4 (ix2 k (0 : Fin 1)))
          (x5 (ix1 (0 : Fin 1))) * val_main_v6 (F := Ideal) x0 x6 (ix2 e q) := by
  rw [val_main_v31_apply, val_main_v30_apply]
  have e7 : idx_main_v30 (ix2 e q) = ix2 e (0 : Fin 1) := funext fun a => by
    match a with
    | ⟨0, _⟩ => rfl
    | ⟨1, _⟩ => rfl
  rw [e7, gate_apply]
  rfl

/-- THE MESSAGE ARRAY of the reference is the message function of its gathered features and the weights. -/
theorem msg_eq_message :
    val_main_v31 (F := Ideal) x0 x1 x2 x3 x4 x5 x6 x7
      = message (val_main_v6 (F := Ideal) x0 x6) (val_main_v13 (F := Ideal) x1 x7) x2 x3 x4 x5 := by
  funext i
  obtain ⟨e, q, rfl⟩ : ∃ (e : Fin 640000) (q : Fin 128), i = ix2 e q := ⟨i 0, i 1, eq_ix2 i⟩
  rw [msg_apply, message_apply]
  rfl

end Cert.ReferenceIdeal.Hand

end
-- ==== Proof.KernelResult.lean ====
/-
  The kernel program's result.

  Around its one region the program gathers the source and destination rows of every edge before it and, after it,
  adds the messages up per destination node, counts the edges per destination node, and divides the sums by the counts
  clipped below at one. The region leaves the message array (`final6`), and the operations before and after the
  region are the reference's own, so the result is the reference's result stage read at the same arguments.
-/
import proofs.«103770_j63376537420169_1_alg».proof.Proof.Gen.KernelIdeal.Frame
import proofs.«103770_j63376537420169_1_alg».proof.Proof.Gen.ReferenceIdeal.Read
import proofs.«103770_j63376537420169_1_alg».proof.Proof.KernelArray
import proofs.«103770_j63376537420169_1_alg».proof.Proof.RefMessage
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.EdgeMath

variable (m : (ℓ : Loc nD τ sig) → Buf (Elt Ideal) ℓ) (ρ : Dev nD → PrngReg)

/-- The program's arguments on core `c`, at the reference's stage types. -/
abbrev a0 (c : Dev nD) : FVec Ideal S100000x128 .f32 := m ((c.tc : Thread nD τ).loc main_arg0)
abbrev a1 (c : Dev nD) : FVec Ideal S100000x128 .f32 := m ((c.tc : Thread nD τ).loc main_arg1)
abbrev a2 (c : Dev nD) : FVec Ideal S256x128 .f32 := m ((c.tc : Thread nD τ).loc main_arg2)
abbrev a3 (c : Dev nD) : FVec Ideal S128 .f32 := m ((c.tc : Thread nD τ).loc main_arg3)
abbrev a4 (c : Dev nD) : FVec Ideal S128x1 .f32 := m ((c.tc : Thread nD τ).loc main_arg4)
abbrev a5 (c : Dev nD) : FVec Ideal S1 .f32 := m ((c.tc : Thread nD τ).loc main_arg5)
abbrev a6 (c : Dev nD) : IVec S640000 32 := m ((c.tc : Thread nD τ).loc main_arg6)
abbrev a7 (c : Dev nD) : IVec S640000 32 := m ((c.tc : Thread nD τ).loc main_arg7)

/-- The gathered source rows the region finds are the reference's gathered source rows. -/
theorem hs_eq (c : Dev nD) : hsArr m c = Cert.ReferenceIdeal.Read.val_main_v6 (F := Ideal) (a0 m c) (a6 m c) := by
  show StableHlo.after hostOps0 (fun b => m (c, b)) (Proc.devRef .tc main_v6) = _
  after_results
  rfl

/-- The gathered destination rows the region finds are the reference's gathered destination rows. -/
theorem hd_eq (c : Dev nD) : hdArr m c = Cert.ReferenceIdeal.Read.val_main_v13 (F := Ideal) (a1 m c) (a7 m c) := by
  show StableHlo.after hostOps0 (fun b => m (c, b)) (Proc.devRef .tc main_v13) = _
  after_results
  rfl

theorem w1_eq (c : Dev nD) : w1Arr m c = a2 m c := V_main_arg2 m c
theorem b1_eq (c : Dev nD) : b1Arr m c = a3 m c := V_main_arg3 m c
theorem w2_eq (c : Dev nD) : w2Arr m c = a4 m c := V_main_arg4 m c
theorem b2_eq (c : Dev nD) : b2Arr m c = a5 m c := V_main_arg5 m c

/-- The message array the region leaves is the reference's message stage. -/
theorem msgArr_eq (c : Dev nD) :
    msgArr m c = Cert.ReferenceIdeal.Read.val_main_v31 (F := Ideal) (a0 m c) (a1 m c) (a2 m c) (a3 m c) (a4 m c) (a5 m c) (a6 m c) (a7 m c) := by
  unfold msgArr
  rw [hs_eq, hd_eq, w1_eq, b1_eq, w2_eq, b2_eq]
  exact (Cert.ReferenceIdeal.Hand.msg_eq_message _ _ _ _ _ _ _ _).symm

/-- THE RESULT after the operations behind the region is the reference's result stage. -/
theorem result_eq (c : Dev nD) :
    Pipeline.afterTail₀ cfgs (dats m) 0 (V0 m) [hostOps1] c main_v25
      = Cert.ReferenceIdeal.Read.val_main_v42 (F := Ideal) (a0 m c) (a1 m c) (a2 m c) (a3 m c) (a4 m c) (a5 m c) (a6 m c) (a7 m c) := by
  unfold Pipeline.afterTail₀
  show StableHlo.after hostOps1 _ (Proc.devRef .tc main_v25) = _
  after_results
  have e7 : Pipeline.withArrays (cfgs 0).spec c (V0 m c) (fun w => (dats m 0 c).arrAt w (cfgs 0).N) (Proc.devRef .tc main_arg7)
      = a7 m c :=
    (Pipeline.withArrays_of_ne _ c (V0 m c) _ main_arg7 (by exact (by decide : ∀ w, Pipeline.arrRef spec0 w ≠ main_arg7))).trans
      (V_main_arg7 m c)
  have e14 : Pipeline.withArrays (cfgs 0).spec c (V0 m c) (fun w => (dats m 0 c).arrAt w (cfgs 0).N) (Proc.devRef .tc main_v14)
      = Cert.ReferenceIdeal.Read.val_main_v31 (F := Ideal) (a0 m c) (a1 m c) (a2 m c) (a3 m c) (a4 m c) (a5 m c) (a6 m c) (a7 m c) :=
    ((Pipeline.withArrays_arr spec0 launch0.win.arr_inj c _ _ 6).trans (final6 m c)).trans (msgArr_eq m c)
  rw [e7, e14]
  rfl

/-- THE RUN, read: every weakly fair execution terminates with the result at the reference's result stage of the
    arguments, and the arguments unchanged. -/
theorem run : θ_run defs (onTc (τ := τ) (main (F := Ideal))) ⟨m, fun _ => 0, ρ⟩ (fun r => ∀ c : Dev nD,
      r.2.mem ((c.tc : Thread nD τ).loc main_v25)
        = Cert.ReferenceIdeal.Read.val_main_v42 (F := Ideal) (a0 m c) (a1 m c) (a2 m c) (a3 m c) (a4 m c) (a5 m c) (a6 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v25 (Pipeline.mem_restRefs_of main_v25 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Hand

end
-- ==== Proof.lean ====
/-
  Edge messages averaged per destination node: the kernel program against its reference, over the extended reals.

  Both programs gather, for each of 640000 edges, the source node's and the destination node's 128 features; compute the
  edge's gate — the two rows joined, a linear layer to 128 hidden values clipped at zero, a linear layer to one number,
  the logistic function —; scale the source features by the gate; add the scaled rows up per destination node; and divide
  by the number of edges per destination node, clipped below at one. The kernel program computes the gate and the scaling
  in one region over 128 blocks of 5000 edges, narrowing the operands of its two block products to the 16-bit format,
  which changes nothing on the extended reals; the reference spells the logistic function as `1 / (1 + e⁻ˣ)`.

  The proof: the region's output array is the message array (`KernelArray`), the reference's message stage is the same
  function of its gathered rows (`RefMessage`), the operations around the region are the reference's own
  (`KernelResult`), so both programs end at one term of the arguments. The three frames are the generated runs; the
  idealization rewrote nothing.
-/
import proofs.«103770_j63376537420169_1_alg».proof.Defs
import proofs.«103770_j63376537420169_1_alg».proof.Proof.Gen.Kernel
import proofs.«103770_j63376537420169_1_alg».proof.Proof.Gen.Kernel.Skeleton
import proofs.«103770_j63376537420169_1_alg».proof.Proof.Gen.Kernel.Launch
import proofs.«103770_j63376537420169_1_alg».proof.Proof.Gen.Kernel.Points
import proofs.«103770_j63376537420169_1_alg».proof.Proof.Gen.Kernel.Frame
import proofs.«103770_j63376537420169_1_alg».proof.Proof.Gen.KernelIdeal
import proofs.«103770_j63376537420169_1_alg».proof.Proof.Gen.KernelIdeal.Skeleton
import proofs.«103770_j63376537420169_1_alg».proof.Proof.Gen.KernelIdeal.Launch
import proofs.«103770_j63376537420169_1_alg».proof.Proof.Gen.KernelIdeal.Points
import proofs.«103770_j63376537420169_1_alg».proof.Proof.Gen.KernelIdeal.Frame
import proofs.«103770_j63376537420169_1_alg».proof.Proof.Gen.ReferenceIdeal
import proofs.«103770_j63376537420169_1_alg».proof.Proof.Gen.ReferenceIdeal.Run
import proofs.«103770_j63376537420169_1_alg».proof.Proof.Gen.ReferenceIdeal.Read
import proofs.«103770_j63376537420169_1_alg».proof.Proof.Gen.Pre_finite_inputs
import proofs.«103770_j63376537420169_1_alg».proof.Proof.KernelResult
import Idealize.ShloMosaic.Adequacy
import Idealize.ShloMosaic.Init

noncomputable section

namespace Cert.Proof

open Idealize.ShloMosaic Idealize.SL.Sem

/-- The kernel program as printed runs, and keeps its arguments. -/
theorem frame_kernel : Cert.frame_Kernel := fun m ρ _ => Cert.Kernel.Gen.frame m ρ

/-- The idealized kernel program runs, and keeps its arguments. -/
theorem frame_kernelIdeal : Cert.frame_KernelIdeal := fun m ρ _ => Cert.KernelIdeal.Gen.frame m ρ

/-- The idealized reference runs, and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the reference's result stage of those
    arguments: the kernel program by its run read through the region, the reference by its own run. -/
theorem algebraic : Cert.algebraic_KernelIdeal_ReferenceIdeal := by
  intro m ρ m' ρ' _ hagree
  refine ⟨fun c => Cert.ReferenceIdeal.Read.val_main_v42 (F := Ideal) (Cert.KernelIdeal.Hand.a0 m c) (Cert.KernelIdeal.Hand.a1 m c)
    (Cert.KernelIdeal.Hand.a2 m c) (Cert.KernelIdeal.Hand.a3 m c) (Cert.KernelIdeal.Hand.a4 m c) (Cert.KernelIdeal.Hand.a5 m c)
    (Cert.KernelIdeal.Hand.a6 m c) (Cert.KernelIdeal.Hand.a7 m c), Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
